-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x32 : Shape := ⟨3, ![64, 1024, 32]⟩
abbrev S32 : Shape := ⟨1, ![32]⟩
abbrev S32x32 : Shape := ⟨2, ![32, 32]⟩
abbrev S_ : Shape := ⟨0, ![]⟩

class Facts : Prop where
  bcast_S_S64x1024x32 : S_.BroadcastsInDim S64x1024x32 (![] : Fin 0 → Fin S64x1024x32.rank)
  reducesTo_S64x1024x32_S_d0_1_2 : S64x1024x32.ReducesTo [0, 1, 2] S_
  h_S_ : 0 < S_.numel
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_

variable [Facts]

def fn_part1 {F : FTy → Type} [FloatOps F] (main_arg4 : FVec F S32 .f32) (main_arg5 : FVec F S32x32 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg5
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  main_v28

def fn {F : FTy → Type} [FloatOps F] (main_arg0 : FVec F S64x1024x32 .f32) (main_arg1 : FVec F S32 .f32) (main_arg2 : FVec F S32 .f32) (main_arg3 : FVec F S32x32 .f32) (main_arg4 : FVec F S32 .f32) (main_arg5 : FVec F S32x32 .f32) : IVec S_ 1 :=
  let main_v0 : FVec F S64x1024x32 .f32 := Host.absf main_arg0
  let main_cst : FVec F S_ .f32 := constant S_ .f32 0x7F800000#32
  let main_v1 : FVec F S64x1024x32 .f32 := broadcastInDim S64x1024x32 ![] bcast_S_S64x1024x32 main_cst
  let main_v2 : IVec S64x1024x32 1 := cmpf .olt main_v0 main_v1
  let main_c : IVec S_ 1 := constantI S_ 1 1#1
  let main_v3 : IVec S_ 1 := (fun x v => Host.reduce IntOp.andi x v reducesTo_S64x1024x32_S_d0_1_2 h_S_) main_v2 main_c
  let main_v4 : FVec F S32 .f32 := Host.absf main_arg1
  let main_cst_0 : FVec F S_ .f32 := constant S_ .f32 0x7F800000#32
  let main_v5 : FVec F S32 .f32 := broadcastInDim S32 ![] bcast_S_S32 main_cst_0
  let main_v6 : IVec S32 1 := cmpf .olt main_v4 main_v5
  let main_c_1 : IVec S_ 1 := constantI S_ 1 1#1
  let main_v7 : IVec S_ 1 := (fun x v => Host.reduce IntOp.andi x v reducesTo_S32_S_d0 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg3
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg4 main_arg5 main_v13 main_v16
-- ==== Kernel.lean ====
abbrev S64x1024x32 : Shape := ⟨3, ![64, 1024, 32]⟩
abbrev S32 : Shape := ⟨1, ![32]⟩
abbrev S32x32 : Shape := ⟨2, ![32, 32]⟩
abbrev S1x32 : Shape := ⟨2, ![1, 32]⟩
abbrev S1x1024x32 : Shape := ⟨3, ![1, 1024, 32]⟩
abbrev S1024x32 : Shape := ⟨2, ![1024, 32]⟩
abbrev S32x1024 : Shape := ⟨2, ![32, 1024]⟩
abbrev S1024x1024 : Shape := ⟨2, ![1024, 1024]⟩
abbrev S1024x1 : Shape := ⟨2, ![1024, 1]⟩
abbrev S1x1024 : Shape := ⟨2, ![1, 1024]⟩

abbrev nBuf : Space → Nat
  | .hbm => 10
  | .vmem => 9
  | .smem => 0
  | _ => 0

abbrev bufTy : (tb : Table) → Fin (tcTables nBuf tb) → BufTy
  | .hbm, ⟨0, _⟩ => ⟨S64x1024x32, .f32⟩
  | .hbm, ⟨1, _⟩ => ⟨S32, .f32⟩
  | .hbm, ⟨2, _⟩ => ⟨S32, .f32⟩
  | .hbm, ⟨3, _⟩ => ⟨S32x32, .f32⟩
  | .hbm, ⟨4, _⟩ => ⟨S32, .f32⟩
  | .hbm, ⟨5, _⟩ => ⟨S32x32, .f32⟩
  | .hbm, ⟨6, _⟩ => ⟨S1x32, .f32⟩
  | .hbm, ⟨7, _⟩ => ⟨S1x32, .f32⟩
  | .hbm, ⟨8, _⟩ => ⟨S1x32, .f32⟩
  | .hbm, ⟨9, _⟩ => ⟨S64x1024x32, .f32⟩
  | .local _ .vmem, ⟨0, _⟩ => ⟨S1x1024x32, .f32⟩
  | .local _ .vmem, ⟨1, _⟩ => ⟨S1x1024x32, .f32⟩
  | .local _ .vmem, ⟨2, _⟩ => ⟨S1x32, .f32⟩
  | .local _ .vmem, ⟨3, _⟩ => ⟨S1x32, .f32⟩
  | .local _ .vmem, ⟨4, _⟩ => ⟨S32x32, .f32⟩
  | .local _ .vmem, ⟨5, _⟩ => ⟨S1x32, .f32⟩
  | .local _ .vmem, ⟨6, _⟩ => ⟨S32x32, .f32⟩
  | .local _ .vmem, ⟨7, _⟩ => ⟨S1x1024x32, .f32⟩
  | .local _ .vmem, ⟨8, _⟩ => ⟨S1x1024x32, .f32⟩
  | _, _ => ⟨S64x1024x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1024x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S32_S1x32 : S32.ShapeCasts S1x32
  inb_S1x1024x32_S1x1024x32_0_0_0 : ∀ a, (![0, 0, 0] : Fin 3 → Nat) a + S1x1024x32.size a ≤ S1x1024x32.size a
  h_S1x1024x32 : 0 < S1x1024x32.numel
  shapeCasts_S1x1024x32_S1024x32 : S1x1024x32.ShapeCasts S1024x32
  inb_S1x32_S1x32_0_0 : ∀ a, (![0, 0] : Fin 2 → Nat) a + S1x32.size a ≤ S1x32.size a
  h_S1x32 : 0 < S1x32.numel
  shapeCasts_S1x32_S32 : S1x32.ShapeCasts S32
  inb_S32x32_S32x32_0_0 : ∀ a, (![0, 0] : Fin 2 → Nat) a + S32x32.size a ≤ S32x32.size a
  h_S32x32 : 0 < S32x32.numel
  broadcasts_S1x32_S1024x32 : S1x32.Broadcasts S1024x32
  bitsLt_bf16_f32 : FTy.bits .bf16 < FTy.bits .f32
  transposes_S1024x32_p1_0_S32x1024 : S1024x32.Transposes [1, 0] S32x1024
  iota_S1024x1_d0_w32 : S1024x1.Iotas .tc 32 [0]
  iota_S1x1024_d1_w32 : S1x1024.Iotas .tc 32 [1]
  broadcasts_S1024x1_S1024x1024 : S1024x1.Broadcasts S1024x1024
  broadcasts_S1x1024_S1024x1024 : S1x1024.Broadcasts S1024x1024
  shapeCasts_S1024x32_S1x1024x32 : S1024x32.ShapeCasts S1x1024x32
  dot_S1024x32_S32x1024_S1024x1024_1_0_0_1_n_n_wf : DotDims.WF S1024x32 S32x1024 S1024x1024 [1] [0] [0] [1] [] []
  dot_S1024x32_S32x32_S1024x32_1_0_0_1_n_n_wf : DotDims.WF S1024x32 S32x32 S1024x32 [1] [0] [0] [1] [] []
  dot_S1024x1024_S1024x32_S1024x32_1_0_0_1_n_n_wf : DotDims.WF S1024x1024 S1024x32 S1024x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x32.size a ≤ S64x1024x32.size a
  hwx0_0 : ∀ i : grid0.Coords, EltTy.bits .f32 = 32 ∨ (Rect.block (s := S64x1024x32) S1x1024x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x32.size a ≤ S1x32.size a
  hwx0_1 : ∀ i : grid0.Coords, EltTy.bits .f32 = 32 ∨ (Rect.block (s := S1x32) S1x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x32.size a ≤ S32x32.size a
  hwx0_5 : ∀ i : grid0.Coords, EltTy.bits .f32 = 32 ∨ (Rect.block (s := S32x32) S32x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x32.size a ≤ S64x1024x32.size a
  hwx0_6 : ∀ i : grid0.Coords, EltTy.bits .f32 = 32 ∨ (Rect.block (s := S64x1024x32) S1x1024x32.size (cc0_transform_6 i) (hinb0_6 i)).WholeWords (EltTy.packing .f32)

variable [Facts₀]

def dot_S1024x32_S32x1024_S1024x1024_1_0_0_1_n_n : DotDims S1024x32 S32x1024 S1024x1024 where
  lhsContracting := [1]
  rhsContracting := [0]
  lhsNonContracting := [0]
  rhsNonContracting := [1]
  lhsBatch := []
  rhsBatch := []
  wf := dot_S1024x32_S32x1024_S1024x1024_1_0_0_1_n_n_wf
def dot_S1024x32_S32x32_S1024x32_1_0_0_1_n_n : DotDims S1024x32 S32x32 S1024x32 where
  lhsContracting := [1]
  rhsContracting := [0]
  lhsNonContracting := [0]
  rhsNonContracting := [1]
  lhsBatch := []
  rhsBatch := []
  wf := dot_S1024x32_S32x32_S1024x32_1_0_0_1_n_n_wf
def dot_S1024x1024_S1024x32_S1024x32_1_0_0_1_n_n : DotDims S1024x1024 S1024x32 S1024x32 where
  lhsContracting := [1]
  rhsContracting := [0]
  lhsNonContracting := [0]
  rhsNonContracting := [1]
  lhsBatch := []
  rhsBatch := []
  wf := dot_S1024x1024_S1024x32_S1024x32_1_0_0_1_n_n_wf

abbrev win0_0 : Pipeline.Window sig grid0 :=
  Pipeline.Window.ofSpec (Memref.whole main_arg0) S1x1024x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S32x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x1024x32.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S64x1024x32 : Shape := ⟨3, ![64, 1024, 32]⟩
abbrev S32 : Shape := ⟨1, ![32]⟩
abbrev S32x32 : Shape := ⟨2, ![32, 32]⟩
abbrev S1x1x32 : Shape := ⟨3, ![1, 1, 32]⟩
abbrev S64x1024x1024 : Shape := ⟨3, ![64, 1024, 1024]⟩
abbrev S1024x1024 : Shape := ⟨2, ![1024, 1024]⟩
abbrev S_ : Shape := ⟨0, ![]⟩
abbrev S1x1024x1024 : Shape := ⟨3, ![1, 1024, 1024]⟩

abbrev nBuf : Space → Nat
  | .hbm => 39
  | .vmem => 0
  | .smem => 0
  | _ => 0

abbrev bufTy : (tb : Table) → Fin (tcTables nBuf tb) → BufTy
  | .hbm, ⟨0, _⟩ => ⟨S64x1024x32, .f32⟩
  | .hbm, ⟨1, _⟩ => ⟨S32, .f32⟩
  | .hbm, ⟨2, _⟩ => ⟨S32, .f32⟩
  | .hbm, ⟨3, _⟩ => ⟨S32x32, .f32⟩
  | .hbm, ⟨4, _⟩ => ⟨S32, .f32⟩
  | .hbm, ⟨5, _⟩ => ⟨S32x32, .f32⟩
  | .hbm, ⟨6, _⟩ => ⟨S1x1x32, .f32⟩
  | .hbm, ⟨7, _⟩ => ⟨S64x1024x32, .f32⟩
  | .hbm, ⟨8, _⟩ => ⟨S64x1024x32, .f32⟩
  | .hbm, ⟨9, _⟩ => ⟨S1x1x32, .f32⟩
  | .hbm, ⟨10, _⟩ => ⟨S64x1024x32, .f32⟩
  | .hbm, ⟨11, _⟩ => ⟨S64x1024x32, .f32⟩
  | .hbm, ⟨12, _⟩ => ⟨S64x1024x1024, .f32⟩
  | .hbm, ⟨13, _⟩ => ⟨S1024x1024, .i32⟩
  | .hbm, ⟨14, _⟩ => ⟨S1024x1024, .i32⟩
  | .hbm, ⟨15, _⟩ => ⟨S_, .i32⟩
  | .hbm, ⟨16, _⟩ => ⟨S1024x1024, .i32⟩
  | .hbm, ⟨17, _⟩ => ⟨S1024x1024, .i32⟩
  | .hbm, ⟨18, _⟩ => ⟨S1024x1024, .i1⟩
  | .hbm, ⟨19, _⟩ => ⟨S1024x1024, .f32⟩
  | .hbm, ⟨20, _⟩ => ⟨S_, .f32⟩
  | .hbm, ⟨21, _⟩ => ⟨S1024x1024, .f32⟩
  | .hbm, ⟨22, _⟩ => ⟨S1024x1024, .f32⟩
  | .hbm, ⟨23, _⟩ => ⟨S1x1024x1024, .f32⟩
  | .hbm, ⟨24, _⟩ => ⟨S64x1024x1024, .f32⟩
  | .hbm, ⟨25, _⟩ => ⟨S64x1024x1024, .f32⟩
  | .hbm, ⟨26, _⟩ => ⟨S64x1024x32, .f32⟩
  | .hbm, ⟨27, _⟩ => ⟨S1x1x32, .f32⟩
  | .hbm, ⟨28, _⟩ => ⟨S64x1024x32, .f32⟩
  | .hbm, ⟨29, _⟩ => ⟨S64x1024x32, .f32⟩
  | .hbm, ⟨30, _⟩ => ⟨S_, .f32⟩
  | .hbm, ⟨31, _⟩ => ⟨S64x1024x32, .f32⟩
  | .hbm, ⟨32, _⟩ => ⟨S64x1024x32, .f32⟩
  | .hbm, ⟨33, _⟩ => ⟨S64x1024x32, .f32⟩
  | .hbm, ⟨34, _⟩ => ⟨S_, .f32⟩
  | .hbm, ⟨35, _⟩ => ⟨S64x1024x32, .f32⟩
  | .hbm, ⟨36, _⟩ => ⟨S64x1024x32, .f32⟩
  | .hbm, ⟨37, _⟩ => ⟨S64x1024x32, .f32⟩
  | .hbm, ⟨38, _⟩ => ⟨S64x1024x32, .f32⟩
  | _, _ => ⟨S64x1024x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_cst : Ref sig .tc := ⟨.hbm, 30, rfl⟩
abbrev main_call0_v0 : Ref sig .tc := ⟨.hbm, 31, rfl⟩
abbrev main_v22 : Ref sig .tc := ⟨.hbm, 32, rfl⟩
abbrev main_v23 : Ref sig .tc := ⟨.hbm, 33, rfl⟩
abbrev main_cst_0 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  bcast_S32_S1x1x32_2 : S32.BroadcastsInDim S1x1x32 (![2] : Fin 1 → Fin S1x1x32.rank)
  bcast_S1x1x32_S64x1024x32_0_1_2 : S1x1x32.BroadcastsInDim S64x1024x32 (![0, 1, 2] : Fin 3 → Fin S64x1024x32.rank)
  bcast_S_S1024x1024 : S_.BroadcastsInDim S1024x1024 (![] : Fin 0 → Fin S1024x1024.rank)
  bcast_S1024x1024_S1x1024x1024_1_2 : S1024x1024.BroadcastsInDim S1x1024x1024 (![1, 2] : Fin 2 → Fin S1x1024x1024.rank)
  bcast_S1x1024x1024_S64x1024x1024_0_1_2 : S1x1024x1024.BroadcastsInDim S64x1024x1024 (![0, 1, 2] : Fin 3 → Fin S64x1024x1024.rank)
  bcast_S_S64x1024x32 : S_.BroadcastsInDim S64x1024x32 (![] : Fin 0 → Fin S64x1024x32.rank)
  dot_S64x1024x32_S64x1024x32_S64x1024x1024_2_2_1_1_0_0_wf : DotDims.WF S64x1024x32 S64x1024x32 S64x1024x1024 [2] [2] [1] [1] [0] [0]
  dot_S64x1024x32_S32x32_S64x1024x32_2_0_01_1_n_n_wf : DotDims.WF S64x1024x32 S32x32 S64x1024x32 [2] [0] [0, 1] [1] [] []
  dot_S64x1024x1024_S64x1024x32_S64x1024x32_2_1_1_2_0_0_wf : DotDims.WF S64x1024x1024 S64x1024x32 S64x1024x32 [2] [1] [1] [2] [0] [0]

variable [Facts₀]

def dot_S64x1024x32_S64x1024x32_S64x1024x1024_2_2_1_1_0_0 : DotDims S64x1024x32 S64x1024x32 S64x1024x1024 where
  lhsContracting := [2]
  rhsContracting := [2]
  lhsNonContracting := [1]
  rhsNonContracting := [1]
  lhsBatch := [0]
  rhsBatch := [0]
  wf := dot_S64x1024x32_S64x1024x32_S64x1024x1024_2_2_1_1_0_0_wf
def dot_S64x1024x32_S32x32_S64x1024x32_2_0_01_1_n_n : DotDims S64x1024x32 S32x32 S64x1024x32 where
  lhsContracting := [2]
  rhsContracting := [0]
  lhsNonContracting := [0, 1]
  rhsNonContracting := [1]
  lhsBatch := []
  rhsBatch := []
  wf := dot_S64x1024x32_S32x32_S64x1024x32_2_0_01_1_n_n_wf
def dot_S64x1024x1024_S64x1024x32_S64x1024x32_2_1_1_2_0_0 : DotDims S64x1024x1024 S64x1024x32 S64x1024x32 where
  lhsContracting := [2]
  rhsContracting := [1]
  lhsNonContracting := [1]
  rhsNonContracting := [2]
  lhsBatch := [0]
  rhsBatch := [0]
  wf := dot_S64x1024x1024_S64x1024x32_S64x1024x32_2_1_1_2_0_0_wf

class Facts : Prop extends Facts₀ where

variable [Facts]
-- ==== Proof.Spec.lean ====
/-
  The function both programs compute, stated once over the argument arrays, index by index, on the extended reals.

  For a batch `b`, elements `i j : Fin 1024` and features `f g : Fin 32`:
    score b i j  = Σ_f (x[b,i,f] · w_psi[f]) · (x[b,j,f] · w_phi[f])         the pairwise relation
    masked b i j = 0 on the diagonal `i = j`, `score b i j` off it
    unary b j g  = max (Σ_f x[b,j,f] · w_u[f,g] + b_u[g]) 0                  the relu representation
    agg b i g    = (Σ_j masked b i j · unary b j g) · 1/1024                 the mean over the other elements
    out b i g    = Σ_h agg b i h · w_r[h,g] + x[b,i,g]                        projection and residual
  The two programs differ in exactly two spellings, both identities on every extended real: the diagonal is removed by a
  select on `i = j` in one and by the factor `1 - [i = j]` in the other (`a · 0 = 0` and `a · 1 = a` hold for `±∞` too),
  and the mean is the product with the dyadic `2⁻¹⁰` in one and the quotient by `1024` in the other.
-/
import Idealize.ShloMosaic.PureOps.Ideal
import Idealize.ShloMosaic.PureOps.Ideal.Laws
import Idealize.ShloMosaic.Lib.ValueIdx

noncomputable section

namespace Cert.Relation

open Idealize.ShloMosaic Idealize.ShloMosaic.ValueIdx

/-! ## The constants -/

/-- The pattern of `2⁻¹⁰` denotes the real `1/1024`. -/
theorem ofBits_inv1024 : Ideal.ofBits .f32 0x3A800000#32 = ((1 / 1024 : ℝ) : EReal) := by
  simp [Ideal.ofBits, Ideal.ieee, -EReal.coe_mul]; norm_num

/-- The pattern of `1024.0` denotes the real `1024`. -/
theorem ofBits_1024 : Ideal.ofBits .f32 0x44800000#32 = ((1024 : ℝ) : EReal) := by
  simp [Ideal.ofBits, Ideal.ieee, -EReal.coe_mul]; norm_num

/-- The pattern of `1.0` denotes `1`. -/
theorem ofBits_one : Ideal.ofBits .f32 0x3F800000#32 = 1 := by
  simp [Ideal.ofBits, Ideal.ieee, -EReal.coe_mul]; norm_num

/-- The quotient by `1024.0` is the product with `2⁻¹⁰`, on every extended real. -/
theorem div_1024 (a : EReal) :
    Ideal.div a (Ideal.ofBits .f32 0x44800000#32) = a * Ideal.ofBits .f32 0x3A800000#32 := by
  rw [ofBits_1024, ofBits_inv1024, Ideal.div_coe (by norm_num : (1024 : ℝ) ≠ 0)]

/-! ## The diagonal test, both spellings -/

/-- Two row numbers below `2³²` compare equal as 32-bit words exactly when they are equal. -/
theorem cmpi_eq_ofNat (i j : Nat) (hi : i < 1024) (hj : j < 1024) :
    IntOp.cmpi .eq (BitVec.ofNat 32 i) (BitVec.ofNat 32 j) = if i = j then 1#1 else 0#1 := by
  unfold IntOp.cmpi
  by_cases h : i = j
  · subst h; simp
  · rw [if_neg h]
    have hne : BitVec.ofNat 32 i ≠ BitVec.ofNat 32 j := by
      intro e
      have e' := congrArg BitVec.toNat e
      simp only [BitVec.toNat_ofNat] at e'
      omega
    rw [beq_eq_false_iff_ne.mpr hne]; rfl

/-- The select on the diagonal test: zero on the diagonal, the score off it. -/
theorem select_diag (i j : Nat) (hi : i < 1024) (hj : j < 1024) (a : EReal) :
    Scalar.select (IntOp.cmpi .eq (BitVec.ofNat 32 i) (BitVec.ofNat 32 j)) (Ideal.ofBits .f32 0x00000000#32) a
      = if i = j then 0 else a := by
  rw [cmpi_eq_ofNat i j hi hj]
  by_cases h : i = j
  · rw [if_pos h, if_pos h, select_one, Ideal.ofBits_zero_f32]
  · rw [if_neg h, if_neg h, select_zero]

/-- The factor `1 - [i = j]`: the same function of the score. -/
theorem mul_one_sub_diag (i j : Nat) (hi : i < 1024) (hj : j < 1024) (a : EReal) :
    a * (Ideal.ofBits .f32 0x3F800000#32
          - FloatOps.uitofp (F := Ideal) .f32 (IntOp.cmpi .eq (IntOp.addi (BitVec.ofNat 32 i) 0#32) (BitVec.ofNat 32 j)))
      = if i = j then 0 else a := by
  have h0 : IntOp.addi (BitVec.ofNat 32 i) 0#32 = BitVec.ofNat 32 i := by
    unfold IntOp.addi; exact BitVec.add_zero _
  rw [h0, cmpi_eq_ofNat i j hi hj, ofBits_one]
  by_cases h : i = j
  · rw [if_pos h, if_pos h]
    show a * (1 - (((1#1 : BitVec 1).toNat : ℝ) : EReal)) = 0
    have e : (1 : EReal) - (((1#1 : BitVec 1).toNat : ℝ) : EReal) = 0 := by
      rw [show (((1#1 : BitVec 1).toNat : ℝ) : EReal) = ((1 : ℝ) : EReal) from by simp, ← EReal.coe_one, ← EReal.coe_sub,
        sub_self, EReal.coe_zero]
    rw [e, mul_zero]
  · rw [if_neg h, if_neg h]
    show a * (1 - (((0#1 : BitVec 1).toNat : ℝ) : EReal)) = a
    have e : (1 : EReal) - (((0#1 : BitVec 1).toNat : ℝ) : EReal) = 1 := by
      rw [show (((0#1 : BitVec 1).toNat : ℝ) : EReal) = 0 from by simp, sub_zero]
    rw [e, mul_one]

/-! ## The function -/

abbrev XArr := FVec Ideal ⟨3, ![64, 1024, 32]⟩ .f32
abbrev GateArr := FVec Ideal ⟨1, ![32]⟩ .f32
abbrev MatArr := FVec Ideal ⟨2, ![32, 32]⟩ .f32

/-- The relation score of elements `i` and `j` of batch `b`. -/
def score (x : XArr) (wpsi wphi : GateArr) (b : Fin 64) (i j : Fin 1024) : EReal :=
  ∑ f : Fin 32, (x (ix3 b i f) * wpsi (ix1 f)) * (x (ix3 b j f) * wphi (ix1 f))

/-- The score with the diagonal removed. -/
def masked (x : XArr) (wpsi wphi : GateArr) (b : Fin 64) (i j : Fin 1024) : EReal :=
  if i.val = j.val then 0 else score x wpsi wphi b i j

/-- The relu representation of element `j`. -/
def unary (x : XArr) (wu : MatArr) (bu : GateArr) (b : Fin 64) (j : Fin 1024) (g : Fin 32) : EReal :=
  max ((∑ f : Fin 32, x (ix3 b j f) * wu (ix2 f g)) + bu (ix1 g)) 0

/-- The mean, over the other elements, of their representation weighted by the score. -/
def agg (x : XArr) (wpsi wphi : GateArr) (wu : MatArr) (bu : GateArr) (b : Fin 64) (i : Fin 1024) (g : Fin 32) : EReal :=
  (∑ j : Fin 1024, masked x wpsi wphi b i j * unary x wu bu b j g) * Ideal.ofBits .f32 0x3A800000#32

/-- The result array: projection of the mean, plus the residual. -/
def out (x : XArr) (wpsi wphi : GateArr) (wu : MatArr) (bu : GateArr) (wr : MatArr) : XArr := fun idx =>
  (∑ h : Fin 32, agg x wpsi wphi wu bu (idx 0) (idx 1) h * wr (ix2 h (idx 2))) + x idx

theorem out_ix3 (x : XArr) (wpsi wphi : GateArr) (wu : MatArr) (bu : GateArr) (wr : MatArr) (b : Fin 64) (i : Fin 1024) (g : Fin 32) :
    out x wpsi wphi wu bu wr (ix3 b i g) = (∑ h : Fin 32, agg x wpsi wphi wu bu b i h * wr (ix2 h g)) + x (ix3 b i g) := rfl

end Cert.Relation

end
-- ==== Proof.RefValue.lean ====
/-
  The reference program's result, stage by stage, is the specification `Cert.Relation.out`.

  Each stage of the reference is read at an index with explicit coordinates: the gated copies `x · w_psi`, `x · w_phi`, their
  batched product contracted over the feature axis (the score), the factor `1 - [i = j]` built from two iotas (the diagonal
  removed), the relu of `x · w_u + b_u`, the batched product contracted over the element axis, the quotient by `1024`, the
  product with `w_r` and the residual. Every sum keeps its index set and its order; the two places where the spelling differs
  from the specification's are `mul_one_sub_diag` and `div_1024`.
-/
import proofs.«129805_j23450521436770_1_alg».proof.Proof.Gen.ReferenceIdeal.Read
import proofs.«129805_j23450521436770_1_alg».proof.Proof.Spec

noncomputable section

namespace Cert.Relation.Ref

open Cert.ReferenceIdeal Cert.ReferenceIdeal.Read Idealize.ShloMosaic Idealize.ShloMosaic.ValueIdx Cert.Relation

variable (x : XArr) (wpsi wphi : GateArr) (wu : MatArr) (bu : GateArr) (wr : MatArr)

/-- `x · w_psi` at `(b, i, f)`: the gate is broadcast along the batch and element axes. -/
theorem gated_psi (b : Fin 64) (i : Fin 1024) (f : Fin 32) :
    val_main_v2 (F := Ideal) x wpsi (ix3 b i f) = x (ix3 b i f) * wpsi (ix1 f) := by
  rw [val_main_v2_apply, val_main_v1_apply, val_main_v0_apply]
  rw [show idx_main_v0 (idx_main_v1 (ix3 b i f)) = ix1 f from funext fun a => by match a with | ⟨0, _⟩ => rfl]
  rfl

/-- `x · w_phi` at `(b, j, f)`. -/
theorem gated_phi (b : Fin 64) (j : Fin 1024) (f : Fin 32) :
    val_main_v5 (F := Ideal) x wphi (ix3 b j f) = x (ix3 b j f) * wphi (ix1 f) := by
  rw [val_main_v5_apply, val_main_v4_apply, val_main_v3_apply]
  rw [show idx_main_v3 (idx_main_v4 (ix3 b j f)) = ix1 f from funext fun a => by match a with | ⟨0, _⟩ => rfl]
  rfl

/-- The batched product over the feature axis is the score. -/
theorem score_at (b : Fin 64) (i j : Fin 1024) :
    val_main_v6 (F := Ideal) x wpsi wphi (ix3 b i j) = score x wpsi wphi b i j := by
  rw [val_main_v6_apply]
  unfold score
  refine Finset.sum_congr rfl fun f _ => ?_
  rw [show lidx_main_v6 (ix3 b i j) f = ix3 b i f from funext fun a => by
        match a with | ⟨0, _⟩ => rfl | ⟨1, _⟩ => rfl | ⟨2, _⟩ => rfl,
      show ridx_main_v6 (ix3 b i j) f = ix3 b j f from funext fun a => by
        match a with | ⟨0, _⟩ => rfl | ⟨1, _⟩ => rfl | ⟨2, _⟩ => rfl,
      gated_psi, gated_phi]

/-- The factor the score is multiplied by at `(b, i, j)`: `1 - [i = j]`, from the row and column iotas. -/
theorem offdiag_at (b : Fin 64) (i j : Fin 1024) :
    val_main_v16 (F := Ideal) (ix3 b i j)
      = Ideal.ofBits .f32 0x3F800000#32
          - FloatOps.uitofp (F := Ideal) .f32 (IntOp.cmpi .eq (IntOp.addi (BitVec.ofNat 32 i.val) 0#32) (BitVec.ofNat 32 j.val)) := by
  rw [val_main_v16_apply, val_main_v15_apply, val_main_v14_apply, val_main_v13_apply, val_main_cst_apply, val_main_v12_apply,
    val_main_v11_apply, val_main_v10_apply, val_main_v9_apply, val_main_c_apply, val_main_v7_apply, val_main_v8_apply]
  rfl

/-- The score with the diagonal removed. -/
theorem masked_at (b : Fin 64) (i j : Fin 1024) :
    val_main_v17 (F := Ideal) x wpsi wphi (ix3 b i j) = masked x wpsi wphi b i j := by
  rw [val_main_v17_apply, score_at, offdiag_at]
  exact mul_one_sub_diag i.val j.val i.isLt j.isLt _

/-- The relu of `x · w_u + b_u` at `(b, j, g)`. -/
theorem unary_at (b : Fin 64) (j : Fin 1024) (g : Fin 32) :
    val_main_v22 (F := Ideal) x wu bu (ix3 b j g) = unary x wu bu b j g := by
  rw [val_main_v22_apply, val_main_v21_apply, val_main_v18_apply, val_main_v20_apply, val_main_v19_apply,
    val_main_call0_v0_apply, val_main_call0_cst_apply]
  rw [show idx_main_v19 (idx_main_v20 (ix3 b j g)) = ix1 g from funext fun a => by match a with | ⟨0, _⟩ => rfl]
  unfold unary
  show max ((∑ k : Fin 32, x (lidx_main_v18 (ix3 b j g) k) * wu (ridx_main_v18 (ix3 b j g) k)) + bu (ix1 g))
      (Ideal.ofBits .f32 0x00000000#32) = _
  rw [Ideal.ofBits_zero_f32]
  refine congrArg (fun s => max (s + bu (ix1 g)) 0) (Finset.sum_congr rfl fun f _ => ?_)
  rw [show lidx_main_v18 (ix3 b j g) f = ix3 b j f from funext fun a => by
        match a with | ⟨0, _⟩ => rfl | ⟨1, _⟩ => rfl | ⟨2, _⟩ => rfl,
      show ridx_main_v18 (ix3 b j g) f = ix2 f g from funext fun a => by
        match a with | ⟨0, _⟩ => rfl | ⟨1, _⟩ => rfl]

/-- The batched product over the element axis, then the quotient by `1024`: the mean. -/
theorem agg_at (b : Fin 64) (i : Fin 1024) (g : Fin 32) :
    val_main_v25 (F := Ideal) x wpsi wphi wu bu (ix3 b i g) = agg x wpsi wphi wu bu b i g := by
  rw [val_main_v25_apply, val_main_v23_apply, val_main_v24_apply, val_main_cst_0_apply]
  show Ideal.div _ (Ideal.ofBits .f32 0x44800000#32) = _
  rw [div_1024]
  unfold agg
  refine congrArg (· * Ideal.ofBits .f32 0x3A800000#32) (Finset.sum_congr rfl fun j _ => ?_)
  rw [show lidx_main_v23 (ix3 b i g) j = ix3 b i j from funext fun a => by
        match a with | ⟨0, _⟩ => rfl | ⟨1, _⟩ => rfl | ⟨2, _⟩ => rfl,
      show ridx_main_v23 (ix3 b i g) j = ix3 b j g from funext fun a => by
        match a with | ⟨0, _⟩ => rfl | ⟨1, _⟩ => rfl | ⟨2, _⟩ => rfl,
      masked_at, unary_at]

/-- The reference's result array is the specification. -/
theorem result_eq : val_main_v27 (F := Ideal) x wpsi wphi wu bu wr = out x wpsi wphi wu bu wr := by
  funext idx
  obtain ⟨b, i, g, rfl⟩ : ∃ (b : Fin 64) (i : Fin 1024) (g : Fin 32), idx = ix3 b i g := ⟨idx 0, idx 1, idx 2, eq_ix3 idx⟩
  rw [out_ix3, val_main_v27_apply, val_main_v26_apply]
  refine congrArg (· + x (ix3 b i g)) (Finset.sum_congr rfl fun h _ => ?_)
  rw [show lidx_main_v26 (ix3 b i g) h = ix3 b i h from funext fun a => by
        match a with | ⟨0, _⟩ => rfl | ⟨1, _⟩ => rfl | ⟨2, _⟩ => rfl,
      show ridx_main_v26 (ix3 b i g) h = ix2 h g from funext fun a => by
        match a with | ⟨0, _⟩ => rfl | ⟨1, _⟩ => rfl,
      agg_at]

end Cert.Relation.Ref

end
-- ==== Proof.KernelProducts.lean ====
/-
  What the kernel body computes from one point's blocks, read at an index, is the specification at that batch.

  The body sees one batch: `x0` is the `[1, 1024, 32]` block of `x`, `x1 x2 x4` the gates and the bias as `[1, 32]` rows,
  `x3 x5` the two `[32, 32]` matrices. Its value is cut into the stages of the computation — the gated rows, their product
  with the transpose (the score), the diagonal test from a column iota and a row iota, the relu stage, the product over
  the element axis scaled by `2⁻¹⁰`, the projection and the residual — and each stage is read at explicit coordinates.
  Rounding steps to the narrow format are the identity on the extended reals, and a product into a zero accumulator is
  the plain sum over the contracted axis.
-/
import proofs.«129805_j23450521436770_1_alg».proof.Proof.Gen.KernelIdeal.Skeleton
import proofs.«129805_j23450521436770_1_alg».proof.Proof.Spec
import Idealize.ShloMosaic.Lib.Pipeline.Value
import Idealize.ShloMosaic.Lib.ValueLayout
import Idealize.ShloMosaic.PureOps.Ideal.Laws

noncomputable section

namespace Cert.Relation.Kern

open Cert.KernelIdeal Cert.KernelIdeal.Gen Idealize.ShloMosaic Idealize.ShloMosaic.ValueIdx Cert.Relation

/-! ## The three products read at an index

Each of the body's products contracts the left operand's axis 1 with the right operand's axis 0. -/

theorem lhs_score_0 (i : S1024x1024.Idx) (q : dot_S1024x32_S32x1024_S1024x1024_1_0_0_1_n_n.contr.Idx) :
    (dot_S1024x32_S32x1024_S1024x1024_1_0_0_1_n_n.lhsIdx i q 0).val = (i 0).val := by
  unfold DotDims.lhsIdx
  rw [dif_neg (show ¬(0 : Fin S1024x32.rank) ∈ dot_S1024x32_S32x1024_S1024x1024_1_0_0_1_n_n.lhsBatch by decide), dif_pos (show (0 : Fin S1024x32.rank) ∈ dot_S1024x32_S32x1024_S1024x1024_1_0_0_1_n_n.lhsNonContracting by decide)]
  rfl
theorem lhs_score_1 (i : S1024x1024.Idx) (q : dot_S1024x32_S32x1024_S1024x1024_1_0_0_1_n_n.contr.Idx) :
    (dot_S1024x32_S32x1024_S1024x1024_1_0_0_1_n_n.lhsIdx i q 1).val = (q ⟨0, by decide⟩).val :=
  dot_S1024x32_S32x1024_S1024x1024_1_0_0_1_n_n.lhsIdx_val_of_single rfl i q
theorem rhs_score_0 (i : S1024x1024.Idx) (q : dot_S1024x32_S32x1024_S1024x1024_1_0_0_1_n_n.contr.Idx) :
    (dot_S1024x32_S32x1024_S1024x1024_1_0_0_1_n_n.rhsIdx i q 0).val = (q ⟨0, by decide⟩).val :=
  dot_S1024x32_S32x1024_S1024x1024_1_0_0_1_n_n.rhsIdx_val_of_single rfl i q
theorem rhs_score_1 (i : S1024x1024.Idx) (q : dot_S1024x32_S32x1024_S1024x1024_1_0_0_1_n_n.contr.Idx) :
    (dot_S1024x32_S32x1024_S1024x1024_1_0_0_1_n_n.rhsIdx i q 1).val = (i 1).val := by
  unfold DotDims.rhsIdx
  rw [dif_neg (show ¬(1 : Fin S32x1024.rank) ∈ dot_S1024x32_S32x1024_S1024x1024_1_0_0_1_n_n.rhsBatch by decide), dif_pos (show (1 : Fin S32x1024.rank) ∈ dot_S1024x32_S32x1024_S1024x1024_1_0_0_1_n_n.rhsNonContracting by decide)]
  rfl

/-- `[1024, 32] × [32, 1024]` into zero: entry `(i, j)` is the sum over the 32 features. -/
theorem matmul_score_apply (l : FVec Ideal S1024x32 .bf16) (r : FVec Ideal S32x1024 .bf16) (i j : Fin 1024) :
    matmul dot_S1024x32_S32x1024_S1024x1024_1_0_0_1_n_n none l r (constant S1024x1024 .f32 0x00000000#32) (ix2 i j)
      = ∑ k : Fin 32, l (ix2 i k) * r (ix2 k j) := by
  simp only [matmul]
  rw [Ideal.matmul_constant_zero_apply, ← Equiv.sum_comp (ValueIdx.contrEquiv1 dot_S1024x32_S32x1024_S1024x1024_1_0_0_1_n_n 32 rfl rfl).symm]
  refine Finset.sum_congr rfl fun k _ => ?_
  have hk := ValueIdx.contrEquiv1_symm_val dot_S1024x32_S32x1024_S1024x1024_1_0_0_1_n_n 32 rfl rfl k
  have el : dot_S1024x32_S32x1024_S1024x1024_1_0_0_1_n_n.lhsIdx (ix2 i j) ((ValueIdx.contrEquiv1 dot_S1024x32_S32x1024_S1024x1024_1_0_0_1_n_n 32 rfl rfl).symm k) = ix2 i k := funext fun a => Fin.ext (by
    match a with
    | ⟨0, _⟩ => exact lhs_score_0 _ _
    | ⟨1, _⟩ => exact (lhs_score_1 _ _).trans hk)
  have er : dot_S1024x32_S32x1024_S1024x1024_1_0_0_1_n_n.rhsIdx (ix2 i j) ((ValueIdx.contrEquiv1 dot_S1024x32_S32x1024_S1024x1024_1_0_0_1_n_n 32 rfl rfl).symm k) = ix2 k j := funext fun a => Fin.ext (by
    match a with
    | ⟨0, _⟩ => exact (rhs_score_0 _ _).trans hk
    | ⟨1, _⟩ => exact rhs_score_1 _ _)
  rw [el, er]

theorem lhs_proj_0 (i : S1024x32.Idx) (q : dot_S1024x32_S32x32_S1024x32_1_0_0_1_n_n.contr.Idx) :
    (dot_S1024x32_S32x32_S1024x32_1_0_0_1_n_n.lhsIdx i q 0).val = (i 0).val := by
  unfold DotDims.lhsIdx
  rw [dif_neg (show ¬(0 : Fin S1024x32.rank) ∈ dot_S1024x32_S32x32_S1024x32_1_0_0_1_n_n.lhsBatch by decide), dif_pos (show (0 : Fin S1024x32.rank) ∈ dot_S1024x32_S32x32_S1024x32_1_0_0_1_n_n.lhsNonContracting by decide)]
  rfl
theorem lhs_proj_1 (i : S1024x32.Idx) (q : dot_S1024x32_S32x32_S1024x32_1_0_0_1_n_n.contr.Idx) :
    (dot_S1024x32_S32x32_S1024x32_1_0_0_1_n_n.lhsIdx i q 1).val = (q ⟨0, by decide⟩).val :=
  dot_S1024x32_S32x32_S1024x32_1_0_0_1_n_n.lhsIdx_val_of_single rfl i q
theorem rhs_proj_0 (i : S1024x32.Idx) (q : dot_S1024x32_S32x32_S1024x32_1_0_0_1_n_n.contr.Idx) :
    (dot_S1024x32_S32x32_S1024x32_1_0_0_1_n_n.rhsIdx i q 0).val = (q ⟨0, by decide⟩).val :=
  dot_S1024x32_S32x32_S1024x32_1_0_0_1_n_n.rhsIdx_val_of_single rfl i q
theorem rhs_proj_1 (i : S1024x32.Idx) (q : dot_S1024x32_S32x32_S1024x32_1_0_0_1_n_n.contr.Idx) :
    (dot_S1024x32_S32x32_S1024x32_1_0_0_1_n_n.rhsIdx i q 1).val = (i 1).val := by
  unfold DotDims.rhsIdx
  rw [dif_neg (show ¬(1 : Fin S32x32.rank) ∈ dot_S1024x32_S32x32_S1024x32_1_0_0_1_n_n.rhsBatch by decide), dif_pos (show (1 : Fin S32x32.rank) ∈ dot_S1024x32_S32x32_S1024x32_1_0_0_1_n_n.rhsNonContracting by decide)]
  rfl

/-- `[1024, 32] × [32, 32]` into zero: entry `(i, g)` is the sum over the 32 features. -/
theorem matmul_proj_apply (l : FVec Ideal S1024x32 .bf16) (r : FVec Ideal S32x32 .bf16) (i : Fin 1024) (g : Fin 32) :
    matmul dot_S1024x32_S32x32_S1024x32_1_0_0_1_n_n none l r (constant S1024x32 .f32 0x00000000#32) (ix2 i g)
      = ∑ k : Fin 32, l (ix2 i k) * r (ix2 k g) := by
  simp only [matmul]
  rw [Ideal.matmul_constant_zero_apply, ← Equiv.sum_comp (ValueIdx.contrEquiv1 dot_S1024x32_S32x32_S1024x32_1_0_0_1_n_n 32 rfl rfl).symm]
  refine Finset.sum_congr rfl fun k _ => ?_
  have hk := ValueIdx.contrEquiv1_symm_val dot_S1024x32_S32x32_S1024x32_1_0_0_1_n_n 32 rfl rfl k
  have el : dot_S1024x32_S32x32_S1024x32_1_0_0_1_n_n.lhsIdx (ix2 i g) ((ValueIdx.contrEquiv1 dot_S1024x32_S32x32_S1024x32_1_0_0_1_n_n 32 rfl rfl).symm k) = ix2 i k := funext fun a => Fin.ext (by
    match a with
    | ⟨0, _⟩ => exact lhs_proj_0 _ _
    | ⟨1, _⟩ => exact (lhs_proj_1 _ _).trans hk)
  have er : dot_S1024x32_S32x32_S1024x32_1_0_0_1_n_n.rhsIdx (ix2 i g) ((ValueIdx.contrEquiv1 dot_S1024x32_S32x32_S1024x32_1_0_0_1_n_n 32 rfl rfl).symm k) = ix2 k g := funext fun a => Fin.ext (by
    match a with
    | ⟨0, _⟩ => exact (rhs_proj_0 _ _).trans hk
    | ⟨1, _⟩ => exact rhs_proj_1 _ _)
  rw [el, er]

theorem lhs_mean_0 (i : S1024x32.Idx) (q : dot_S1024x1024_S1024x32_S1024x32_1_0_0_1_n_n.contr.Idx) :
    (dot_S1024x1024_S1024x32_S1024x32_1_0_0_1_n_n.lhsIdx i q 0).val = (i 0).val := by
  unfold DotDims.lhsIdx
  rw [dif_neg (show ¬(0 : Fin S1024x1024.rank) ∈ dot_S1024x1024_S1024x32_S1024x32_1_0_0_1_n_n.lhsBatch by decide), dif_pos (show (0 : Fin S1024x1024.rank) ∈ dot_S1024x1024_S1024x32_S1024x32_1_0_0_1_n_n.lhsNonContracting by decide)]
  rfl
theorem lhs_mean_1 (i : S1024x32.Idx) (q : dot_S1024x1024_S1024x32_S1024x32_1_0_0_1_n_n.contr.Idx) :
    (dot_S1024x1024_S1024x32_S1024x32_1_0_0_1_n_n.lhsIdx i q 1).val = (q ⟨0, by decide⟩).val :=
  dot_S1024x1024_S1024x32_S1024x32_1_0_0_1_n_n.lhsIdx_val_of_single rfl i q
theorem rhs_mean_0 (i : S1024x32.Idx) (q : dot_S1024x1024_S1024x32_S1024x32_1_0_0_1_n_n.contr.Idx) :
    (dot_S1024x1024_S1024x32_S1024x32_1_0_0_1_n_n.rhsIdx i q 0).val = (q ⟨0, by decide⟩).val :=
  dot_S1024x1024_S1024x32_S1024x32_1_0_0_1_n_n.rhsIdx_val_of_single rfl i q
theorem rhs_mean_1 (i : S1024x32.Idx) (q : dot_S1024x1024_S1024x32_S1024x32_1_0_0_1_n_n.contr.Idx) :
    (dot_S1024x1024_S1024x32_S1024x32_1_0_0_1_n_n.rhsIdx i q 1).val = (i 1).val := by
  unfold DotDims.rhsIdx
  rw [dif_neg (show ¬(1 : Fin S1024x32.rank) ∈ dot_S1024x1024_S1024x32_S1024x32_1_0_0_1_n_n.rhsBatch by decide), dif_pos (show (1 : Fin S1024x32.rank) ∈ dot_S1024x1024_S1024x32_S1024x32_1_0_0_1_n_n.rhsNonContracting by decide)]
  rfl

/-- `[1024, 1024] × [1024, 32]` into zero: entry `(i, g)` is the sum over the 1024 elements. -/
theorem matmul_mean_apply (l : FVec Ideal S1024x1024 .bf16) (r : FVec Ideal S1024x32 .bf16) (i : Fin 1024) (g : Fin 32) :
    matmul dot_S1024x1024_S1024x32_S1024x32_1_0_0_1_n_n none l r (constant S1024x32 .f32 0x00000000#32) (ix2 i g)
      = ∑ k : Fin 1024, l (ix2 i k) * r (ix2 k g) := by
  simp only [matmul]
  rw [Ideal.matmul_constant_zero_apply, ← Equiv.sum_comp (ValueIdx.contrEquiv1 dot_S1024x1024_S1024x32_S1024x32_1_0_0_1_n_n 1024 rfl rfl).symm]
  refine Finset.sum_congr rfl fun k _ => ?_
  have hk := ValueIdx.contrEquiv1_symm_val dot_S1024x1024_S1024x32_S1024x32_1_0_0_1_n_n 1024 rfl rfl k
  have el : dot_S1024x1024_S1024x32_S1024x32_1_0_0_1_n_n.lhsIdx (ix2 i g) ((ValueIdx.contrEquiv1 dot_S1024x1024_S1024x32_S1024x32_1_0_0_1_n_n 1024 rfl rfl).symm k) = ix2 i k := funext fun a => Fin.ext (by
    match a with
    | ⟨0, _⟩ => exact lhs_mean_0 _ _
    | ⟨1, _⟩ => exact (lhs_mean_1 _ _).trans hk)
  have er : dot_S1024x1024_S1024x32_S1024x32_1_0_0_1_n_n.rhsIdx (ix2 i g) ((ValueIdx.contrEquiv1 dot_S1024x1024_S1024x32_S1024x32_1_0_0_1_n_n 1024 rfl rfl).symm k) = ix2 k g := funext fun a => Fin.ext (by
    match a with
    | ⟨0, _⟩ => exact (rhs_mean_0 _ _).trans hk
    | ⟨1, _⟩ => exact rhs_mean_1 _ _)
  rw [el, er]

end Cert.Relation.Kern

end
-- ==== Proof.KernelBlock.lean ====
/-
  The body's value, stage by stage, at one batch.

  `pay3_eq` and `pay1_eq` say the body's two payloads are the composition of the stages below (the body's text with its
  bindings substituted); each stage is then read at coordinates from the blocks' entries, which the hypotheses `hx … hwr` identify
  with entries of the whole argument arrays at batch `b`.
-/
import proofs.«129805_j23450521436770_1_alg».proof.Proof.KernelProducts

noncomputable section

namespace Cert.Relation.Kern

open Cert.KernelIdeal Cert.KernelIdeal.Gen Idealize.ShloMosaic Idealize.ShloMosaic.ValueIdx Cert.Relation

/-! ## The stages of the body -/

/-- The rows of the batch, each feature scaled by a gate, in the narrow format. -/
def gatedB (x0 : Vec Ideal S1x1024x32 .f32) (w : Vec Ideal S1x32 .f32) : FVec Ideal S1024x32 .bf16 :=
  truncf .bf16 (mulf (k0_pay2 x0) (broadcastTo S1024x32 (shapeCast S1x32 (shapeCast S32 w shapeCasts_S1x32_S32) shapeCasts_S32_S1x32) broadcasts_S1x32_S1024x32)) bitsLt_bf16_f32

/-- The score matrix of the batch. -/
def scoreB (x0 : Vec Ideal S1x1024x32 .f32) (x1 x2 : Vec Ideal S1x32 .f32) : FVec Ideal S1024x1024 .f32 :=
  matmul dot_S1024x32_S32x1024_S1024x1024_1_0_0_1_n_n none (gatedB x0 x1)
    (transpose S32x1024 [1, 0] (gatedB x0 x2) transposes_S1024x32_p1_0_S32x1024) (constant S1024x1024 .f32 0x00000000#32)

/-- The diagonal test: the row number against the column number. -/
def diagB : IVec S1024x1024 1 :=
  cmpi .eq (broadcastTo S1024x1024 (iota .tc S1024x1 32 [0] iota_S1024x1_d0_w32) broadcasts_S1024x1_S1024x1024)
    (broadcastTo S1024x1024 (iota .tc S1x1024 32 [1] iota_S1x1024_d1_w32) broadcasts_S1x1024_S1024x1024)

/-- The score with the diagonal zeroed, in the narrow format. -/
def maskedB (x0 : Vec Ideal S1x1024x32 .f32) (x1 x2 : Vec Ideal S1x32 .f32) : FVec Ideal S1024x1024 .bf16 :=
  truncf .bf16 (select diagB (broadcast S1024x1024 (Scalar.ofBits (F := Ideal) .f32 0x00000000#32)) (scoreB x0 x1 x2)) bitsLt_bf16_f32

/-- The relu representation of each row, in the narrow format. -/
def unaryB (x0 : Vec Ideal S1x1024x32 .f32) (x3 : Vec Ideal S32x32 .f32) (x4 : Vec Ideal S1x32 .f32) : FVec Ideal S1024x32 .bf16 :=
  truncf .bf16 (maximumf
    (addf (matmul dot_S1024x32_S32x32_S1024x32_1_0_0_1_n_n none (truncf .bf16 (k0_pay2 x0) bitsLt_bf16_f32) (truncf .bf16 x3 bitsLt_bf16_f32) (constant S1024x32 .f32 0x00000000#32))
      (broadcastTo S1024x32 (shapeCast S1x32 (shapeCast S32 x4 shapeCasts_S1x32_S32) shapeCasts_S32_S1x32) broadcasts_S1x32_S1024x32))
    (broadcast S1024x32 (Scalar.ofBits (F := Ideal) .f32 0x00000000#32))) bitsLt_bf16_f32

/-- The mean over the other elements. -/
def aggB (x0 : Vec Ideal S1x1024x32 .f32) (x1 x2 : Vec Ideal S1x32 .f32) (x3 : Vec Ideal S32x32 .f32) (x4 : Vec Ideal S1x32 .f32) : FVec Ideal S1024x32 .f32 :=
  mulf (matmul dot_S1024x1024_S1024x32_S1024x32_1_0_0_1_n_n none (maskedB x0 x1 x2) (unaryB x0 x3 x4) (constant S1024x32 .f32 0x00000000#32))
    (broadcast S1024x32 (Scalar.ofBits (F := Ideal) .f32 0x3A800000#32))

/-- The body's first payload is the mean stage. -/
theorem pay3_eq (x0 : Vec Ideal S1x1024x32 .f32) (x1 x2 : Vec Ideal S1x32 .f32) (x3 : Vec Ideal S32x32 .f32) (x4 : Vec Ideal S1x32 .f32) :
    k0_pay3 x0 x1 x2 x3 x4 = aggB x0 x1 x2 x3 x4 := rfl

/-- The body's stored payload: the mean projected by `x5`, plus the rows, as a `[1, 1024, 32]` block. -/
theorem pay1_eq (v1 : FVec Ideal S1024x32 .f32) (x5 : Vec Ideal S32x32 .f32) (v39 : FVec Ideal S1024x32 .f32) :
    k0_pay1 v1 x5 v39 = shapeCast S1x1024x32 (addf (matmul dot_S1024x32_S32x32_S1024x32_1_0_0_1_n_n none (truncf .bf16 v39 bitsLt_bf16_f32) (truncf .bf16 x5 bitsLt_bf16_f32) (constant S1024x32 .f32 0x00000000#32)) v1) shapeCasts_S1024x32_S1x1024x32 := rfl

/-! ## The stages at coordinates -/

/-- Row `i` of the batch's block, feature `f`. -/
theorem row_at (x0 : Vec Ideal S1x1024x32 .f32) (i : Fin 1024) (f : Fin 32) :
    k0_pay2 x0 (ix2 i f) = x0 (ix3 (0 : Fin 1) i f) := by
  unfold k0_pay2
  exact shapeCast_1ab_ab_apply x0 _ i f

/-- A `[1, 32]` row, flattened, restored and broadcast down the 1024 rows, reads its entry `f` at `(i, f)`. -/
theorem rowvec_at (w : Vec Ideal S1x32 .f32) (i : Fin 1024) (f : Fin 32) :
    broadcastTo S1024x32 (shapeCast S1x32 (shapeCast S32 w shapeCasts_S1x32_S32) shapeCasts_S32_S1x32) broadcasts_S1x32_S1024x32 (ix2 i f)
      = w (ix2 (0 : Fin 1) f) := by
  rw [shapeCast_shapeCast]
  exact broadcastTo_1b_ab_apply w _ i f

theorem gatedB_at (x0 : Vec Ideal S1x1024x32 .f32) (w : Vec Ideal S1x32 .f32) (i : Fin 1024) (f : Fin 32) :
    gatedB x0 w (ix2 i f) = x0 (ix3 (0 : Fin 1) i f) * w (ix2 (0 : Fin 1) f) := by
  unfold gatedB
  show k0_pay2 x0 (ix2 i f) * _ = _
  rw [row_at, rowvec_at]

theorem scoreB_at (x0 : Vec Ideal S1x1024x32 .f32) (x1 x2 : Vec Ideal S1x32 .f32) (i j : Fin 1024) :
    scoreB x0 x1 x2 (ix2 i j)
      = ∑ f : Fin 32, (x0 (ix3 (0 : Fin 1) i f) * x1 (ix2 (0 : Fin 1) f)) * (x0 (ix3 (0 : Fin 1) j f) * x2 (ix2 (0 : Fin 1) f)) := by
  unfold scoreB
  rw [matmul_score_apply]
  refine Finset.sum_congr rfl fun f _ => ?_
  rw [transpose_ix2_apply, gatedB_at, gatedB_at]

/-- The diagonal test at `(i, j)` compares the two coordinates as 32-bit words. -/
theorem diagB_at (i j : Fin 1024) :
    diagB (ix2 i j) = IntOp.cmpi .eq (BitVec.ofNat 32 i.val) (BitVec.ofNat 32 j.val) := by
  unfold diagB
  show IntOp.cmpi .eq _ _ = _
  have e0 : broadcastTo S1024x1024 (iota .tc S1024x1 32 [0] iota_S1024x1_d0_w32) broadcasts_S1024x1_S1024x1024 (ix2 i j) = BitVec.ofNat 32 i.val := by
    refine (broadcastTo_apply _ _ (ix2 i j) (ix2 i (0 : Fin 1)) fun ax => ?_).trans ?_
    · match ax with
      | ⟨0, _⟩ => rfl
      | ⟨1, _⟩ => rfl
    · rw [iota_single_apply]
  have e1 : broadcastTo S1024x1024 (iota .tc S1x1024 32 [1] iota_S1x1024_d1_w32) broadcasts_S1x1024_S1024x1024 (ix2 i j) = BitVec.ofNat 32 j.val := by
    rw [broadcastTo_1b_ab_apply, iota_single_apply]
  rw [e0, e1]

theorem maskedB_at (x0 : Vec Ideal S1x1024x32 .f32) (x1 x2 : Vec Ideal S1x32 .f32) (i j : Fin 1024) :
    maskedB x0 x1 x2 (ix2 i j) = if i.val = j.val then 0 else scoreB x0 x1 x2 (ix2 i j) := by
  unfold maskedB
  show Scalar.select (diagB (ix2 i j)) (Ideal.ofBits .f32 0x00000000#32) (scoreB x0 x1 x2 (ix2 i j)) = _
  rw [diagB_at]
  exact select_diag i.val j.val i.isLt j.isLt _

theorem unaryB_at (x0 : Vec Ideal S1x1024x32 .f32) (x3 : Vec Ideal S32x32 .f32) (x4 : Vec Ideal S1x32 .f32) (j : Fin 1024) (g : Fin 32) :
    unaryB x0 x3 x4 (ix2 j g)
      = max ((∑ f : Fin 32, x0 (ix3 (0 : Fin 1) j f) * x3 (ix2 f g)) + x4 (ix2 (0 : Fin 1) g)) 0 := by
  unfold unaryB
  show max (matmul dot_S1024x32_S32x32_S1024x32_1_0_0_1_n_n none _ _ _ (ix2 j g) + broadcastTo S1024x32 _ _ (ix2 j g)) (Ideal.ofBits .f32 0x00000000#32) = _
  rw [matmul_proj_apply, rowvec_at, Ideal.ofBits_zero_f32]
  refine congrArg (fun s => max (s + x4 (ix2 (0 : Fin 1) g)) 0) (Finset.sum_congr rfl fun f _ => ?_)
  show k0_pay2 x0 (ix2 j f) * x3 (ix2 f g) = _
  rw [row_at]

/-! ## The block is the specification at its batch -/

section Block

variable (X : XArr) (wpsi wphi : GateArr) (wu : MatArr) (bu : GateArr) (wr : MatArr) (b : Fin 64)
variable (x0 : Vec Ideal S1x1024x32 .f32) (x1 x2 : Vec Ideal S1x32 .f32) (x3 : Vec Ideal S32x32 .f32) (x4 : Vec Ideal S1x32 .f32) (x5 : Vec Ideal S32x32 .f32)
variable (hx : ∀ (i : Fin 1024) (f : Fin 32), x0 (ix3 (0 : Fin 1) i f) = X (ix3 b i f))
variable (hpsi : ∀ f : Fin 32, x1 (ix2 (0 : Fin 1) f) = wpsi (ix1 f))
variable (hphi : ∀ f : Fin 32, x2 (ix2 (0 : Fin 1) f) = wphi (ix1 f))
variable (hwu : ∀ f g : Fin 32, x3 (ix2 f g) = wu (ix2 f g))
variable (hbu : ∀ g : Fin 32, x4 (ix2 (0 : Fin 1) g) = bu (ix1 g))
variable (hwr : ∀ f g : Fin 32, x5 (ix2 f g) = wr (ix2 f g))

include hx hpsi hphi in
theorem maskedB_spec (i j : Fin 1024) : maskedB x0 x1 x2 (ix2 i j) = masked X wpsi wphi b i j := by
  rw [maskedB_at, scoreB_at]
  unfold masked score
  refine if_congr Iff.rfl rfl (Finset.sum_congr rfl fun f _ => ?_)
  rw [hx, hx, hpsi, hphi]

include hx hwu hbu in
theorem unaryB_spec (j : Fin 1024) (g : Fin 32) : unaryB x0 x3 x4 (ix2 j g) = unary X wu bu b j g := by
  rw [unaryB_at]
  unfold unary
  rw [hbu]
  refine congrArg (fun s => max (s + bu (ix1 g)) 0) (Finset.sum_congr rfl fun f _ => ?_)
  rw [hx, hwu]

include hx hpsi hphi hwu hbu in
theorem aggB_spec (i : Fin 1024) (g : Fin 32) : aggB x0 x1 x2 x3 x4 (ix2 i g) = agg X wpsi wphi wu bu b i g := by
  unfold aggB agg
  show matmul dot_S1024x1024_S1024x32_S1024x32_1_0_0_1_n_n none _ _ _ (ix2 i g) * Ideal.ofBits .f32 0x3A800000#32 = _
  rw [matmul_mean_apply]
  refine congrArg (· * Ideal.ofBits .f32 0x3A800000#32) (Finset.sum_congr rfl fun j _ => ?_)
  rw [maskedB_spec X wpsi wphi b x0 x1 x2 hx hpsi hphi, unaryB_spec X wu bu b x0 x3 x4 hx hwu hbu]

include hx hpsi hphi hwu hbu hwr in
/-- What the body stores, at `(0, i, g)` of its block, is the specification at `(b, i, g)`. -/
theorem stored_spec (i : Fin 1024) (g : Fin 32) :
    k0_pay1 (k0_pay2 x0) x5 (k0_pay3 x0 x1 x2 x3 x4) (ix3 (0 : Fin 1) i g) = out X wpsi wphi wu bu wr (ix3 b i g) := by
  rw [pay1_eq, pay3_eq, shapeCast_ab_1ab_apply, out_ix3]
  show matmul dot_S1024x32_S32x32_S1024x32_1_0_0_1_n_n none _ _ _ (ix2 i g) + k0_pay2 x0 (ix2 i g) = _
  rw [matmul_proj_apply, row_at, hx]
  refine congrArg (· + X (ix3 b i g)) (Finset.sum_congr rfl fun h _ => ?_)
  show aggB x0 x1 x2 x3 x4 (ix2 i h) * x5 (ix2 h g) = _
  rw [aggB_spec X wpsi wphi wu bu b x0 x1 x2 x3 x4 hx hpsi hphi hwu hbu, hwr]

include hx hpsi hphi hwu hbu hwr in
/-- The same at any index of the block: the block's leading axis has one coordinate. -/
theorem stored_spec_idx (j : S1x1024x32.Idx) :
    k0_pay1 (k0_pay2 x0) x5 (k0_pay3 x0 x1 x2 x3 x4) j = out X wpsi wphi wu bu wr (ix3 b (j 1) (j 2)) := by
  obtain ⟨u, i, g, rfl⟩ : ∃ (u : Fin 1) (i : Fin 1024) (g : Fin 32), j = ix3 u i g := ⟨j 0, j 1, j 2, eq_ix3 j⟩
  obtain rfl : u = 0 := Subsingleton.elim _ _
  exact stored_spec X wpsi wphi wu bu wr b x0 x1 x2 x3 x4 x5 hx hpsi hphi hwu hbu hwr i g

end Block

end Cert.Relation.Kern

end
-- ==== Proof.KernelArray.lean ====
/-
  From one point's block to the whole result array.

  The grid has one point per batch. Point `t` reads batch `t` of `x` and the whole of every other operand — the gates and
  the bias through a host reshape of the `[32]` arguments to `[1, 32]` —, so its blocks' entries are entries of the argument
  arrays at batch `t`; it writes back batch `t` of the result. The 64 blocks tile the result array, which therefore ends
  holding the specification of the argument arrays.
-/
import proofs.«129805_j23450521436770_1_alg».proof.Proof.Gen.KernelIdeal.Value
import proofs.«129805_j23450521436770_1_alg».proof.Proof.KernelBlock
import Idealize.ShloMosaic.Lib.StableHlo.Run

noncomputable section

namespace Cert.Relation.Kern

open Cert.KernelIdeal Cert.KernelIdeal.Gen Idealize.ShloMosaic Idealize.ShloMosaic.TcCoe Idealize.SL.Sem
open Idealize.ShloMosaic.ValueIdx Cert.Relation
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The batch a grid point works on. -/
def batchOf (t : Fin cfg0.N) : Fin 64 := ⟨t.val, by have h := t.isLt; have e : cfg0.N = 64 := N_0; omega⟩

/-- The printed index maps over the grid: the `x` and result windows move along the batch axis with the point, every
    other window stays on its one block. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 3) = t.val ∧ win0_6.index t (1 : Fin 3) = 0 ∧ win0_6.index t (2 : Fin 3) = 0) :=
  (by decide +kernel : ∀ t : Fin grid0.N, _)

/-! ## The host reshapes before the region -/

theorem V_gate_psi (c : Dev nD) : (V m c main_v0 : S1x32.Idx → EReal) = shapeCast S1x32 (m ((c : Thread nD τ).loc main_arg1)) shapeCasts_S32_S1x32 := by
  dsimp only [V, hostOps0]; after_results; rfl
theorem V_gate_phi (c : Dev nD) : (V m c main_v1 : S1x32.Idx → EReal) = shapeCast S1x32 (m ((c : Thread nD τ).loc main_arg2)) shapeCasts_S32_S1x32 := by
  dsimp only [V, hostOps0]; after_results; rfl
theorem V_bias (c : Dev nD) : (V m c main_v2 : S1x32.Idx → EReal) = shapeCast S1x32 (m ((c : Thread nD τ).loc main_arg4)) shapeCasts_S32_S1x32 := by
  dsimp only [V, hostOps0]; after_results; rfl

/-! ## The blocks' entries are the arguments' -/

theorem xblk_at (c : Dev nD) (t : Fin cfg0.N) (i : Fin 1024) (f : Fin 32) :
    (iblk m c 0 t : Vec Ideal S1x1024x32 .f32) (ix3 (0 : Fin 1) i f)
      = (m ((c : Thread nD τ).loc main_arg0) : S64x1024x32.Idx → EReal) (ix3 (batchOf t) i f) := by
  obtain ⟨⟨e0, e1, e2⟩, -⟩ := idx_facts t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 3) * 1 + 1 * 0 = t.val; omega
  | ⟨1, _⟩ => show win0_0.index t (1 : Fin 3) * 1024 + 1 * i.val = i.val; omega
  | ⟨2, _⟩ => show win0_0.index t (2 : Fin 3) * 32 + 1 * f.val = f.val; omega

theorem psiblk_at (c : Dev nD) (t : Fin cfg0.N) (f : Fin 32) :
    (iblk m c 1 t : Vec Ideal S1x32 .f32) (ix2 (0 : Fin 1) f) = (m ((c : Thread nD τ).loc main_arg1) : S32.Idx → EReal) (ix1 f) := by
  obtain ⟨-, ⟨e0, e1⟩, -⟩ := idx_facts t
  unfold iblk
  rw [View.read_apply]
  show V m c main_v0 _ = _
  rw [V_gate_psi]
  refine Eq.trans ?_ (shapeCast_a_1a_apply (m ((c : Thread nD τ).loc main_arg1)) shapeCasts_S32_S1x32 (0 : Fin 1) f)
  refine congrArg (shapeCast S1x32 (m ((c : Thread nD τ).loc main_arg1)) shapeCasts_S32_S1x32) (funext fun a => Fin.ext ?_)
  match a with
  | ⟨0, _⟩ => show win0_1.index t (0 : Fin 2) * 1 + 1 * 0 = 0; omega
  | ⟨1, _⟩ => show win0_1.index t (1 : Fin 2) * 32 + 1 * f.val = f.val; omega

theorem phiblk_at (c : Dev nD) (t : Fin cfg0.N) (f : Fin 32) :
    (iblk m c 2 t : Vec Ideal S1x32 .f32) (ix2 (0 : Fin 1) f) = (m ((c : Thread nD τ).loc main_arg2) : S32.Idx → EReal) (ix1 f) := by
  obtain ⟨-, -, ⟨e0, e1⟩, -⟩ := idx_facts t
  unfold iblk
  rw [View.read_apply]
  show V m c main_v1 _ = _
  rw [V_gate_phi]
  refine Eq.trans ?_ (shapeCast_a_1a_apply (m ((c : Thread nD τ).loc main_arg2)) shapeCasts_S32_S1x32 (0 : Fin 1) f)
  refine congrArg (shapeCast S1x32 (m ((c : Thread nD τ).loc main_arg2)) shapeCasts_S32_S1x32) (funext fun a => Fin.ext ?_)
  match a with
  | ⟨0, _⟩ => show win0_2.index t (0 : Fin 2) * 1 + 1 * 0 = 0; omega
  | ⟨1, _⟩ => show win0_2.index t (1 : Fin 2) * 32 + 1 * f.val = f.val; omega

theorem wublk_at (c : Dev nD) (t : Fin cfg0.N) (f g : Fin 32) :
    (iblk m c 3 t : Vec Ideal S32x32 .f32) (ix2 f g) = (m ((c : Thread nD τ).loc main_arg3) : S32x32.Idx → EReal) (ix2 f g) := by
  obtain ⟨-, -, -, ⟨e0, e1⟩, -⟩ := idx_facts t
  unfold iblk
  rw [View.read_apply]
  show V m c main_arg3 _ = _
  rw [V_main_arg3]
  refine congrArg (m ((c : Thread nD τ).loc main_arg3)) (funext fun a => Fin.ext ?_)
  match a with
  | ⟨0, _⟩ => show win0_3.index t (0 : Fin 2) * 32 + 1 * f.val = f.val; omega
  | ⟨1, _⟩ => show win0_3.index t (1 : Fin 2) * 32 + 1 * g.val = g.val; omega

theorem bublk_at (c : Dev nD) (t : Fin cfg0.N) (g : Fin 32) :
    (iblk m c 4 t : Vec Ideal S1x32 .f32) (ix2 (0 : Fin 1) g) = (m ((c : Thread nD τ).loc main_arg4) : S32.Idx → EReal) (ix1 g) := by
  obtain ⟨-, -, -, -, ⟨e0, e1⟩, -⟩ := idx_facts t
  unfold iblk
  rw [View.read_apply]
  show V m c main_v2 _ = _
  rw [V_bias]
  refine Eq.trans ?_ (shapeCast_a_1a_apply (m ((c : Thread nD τ).loc main_arg4)) shapeCasts_S32_S1x32 (0 : Fin 1) g)
  refine congrArg (shapeCast S1x32 (m ((c : Thread nD τ).loc main_arg4)) shapeCasts_S32_S1x32) (funext fun a => Fin.ext ?_)
  match a with
  | ⟨0, _⟩ => show win0_4.index t (0 : Fin 2) * 1 + 1 * 0 = 0; omega
  | ⟨1, _⟩ => show win0_4.index t (1 : Fin 2) * 32 + 1 * g.val = g.val; omega

theorem wrblk_at (c : Dev nD) (t : Fin cfg0.N) (f g : Fin 32) :
    (iblk m c 5 t : Vec Ideal S32x32 .f32) (ix2 f g) = (m ((c : Thread nD τ).loc main_arg5) : S32x32.Idx → EReal) (ix2 f g) := by
  obtain ⟨-, -, -, -, -, ⟨e0, e1⟩, -⟩ := idx_facts t
  unfold iblk
  rw [View.read_apply]
  show V m c main_arg5 _ = _
  rw [V_main_arg5]
  refine congrArg (m ((c : Thread nD τ).loc main_arg5)) (funext fun a => Fin.ext ?_)
  match a with
  | ⟨0, _⟩ => show win0_5.index t (0 : Fin 2) * 32 + 1 * f.val = f.val; omega
  | ⟨1, _⟩ => show win0_5.index t (1 : Fin 2) * 32 + 1 * g.val = g.val; omega

/-! ## The result array -/

/-- The specification of the argument arrays as launched on core `c`. -/
abbrev result (c : Dev nD) : S64x1024x32.Idx → EReal :=
  out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- What point `t` writes back is batch `t` of the specification. -/
theorem flushed_eq (c : Dev nD) (t : Fin cfg0.N) :
    (dats m 0 c).flushed 6 t = ((cfg0.win 6).blk t).view.read (Elt Ideal) (result m c) := by
  rw [Cert.KernelIdeal.Value.flushed6]
  unfold out0_6
  rw [View.canon_unit_zero hz3]
  simp only [View.ld_unit_zero (S := S1x1024x32) hz3, View.ld_unit_zero (S := S1x32) hz2, View.ld_unit_zero (S := S32x32) hz2]
  obtain ⟨-, -, -, -, -, -, ⟨e0, e1, e2⟩⟩ := idx_facts t
  funext j
  refine (stored_spec_idx (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (batchOf t)
    (iblk m c 0 t) (iblk m c 1 t) (iblk m c 2 t) (iblk m c 3 t) (iblk m c 4 t) (iblk m c 5 t)
    (xblk_at m c t) (psiblk_at m c t) (phiblk_at m c t) (wublk_at m c t) (bublk_at m c t) (wrblk_at m c t) j).trans ?_
  rw [View.read_apply]
  refine congrArg (result m c) (funext fun a => Fin.ext ?_)
  have hj0 : (j 0).val < 1 := (j 0).isLt
  match a with
  | ⟨0, _⟩ => show t.val = win0_6.index t (0 : Fin 3) * 1 + 1 * (j 0).val; omega
  | ⟨1, _⟩ => show (j 1).val = win0_6.index t (1 : Fin 3) * 1024 + 1 * (j 1).val; omega
  | ⟨2, _⟩ => show (j 2).val = win0_6.index t (2 : Fin 3) * 32 + 1 * (j 2).val; omega

/-- An index of the result array is in point `t`'s block iff each coordinate is in the block's range on its axis. -/
theorem mem_blk (t : Fin cfg0.N) (i : S64x1024x32.Idx) :
    i ∈ ((cfg0.win 6).blk t).view.set ↔ ∀ a : Fin 3, win0_6.index t a * S1x1024x32.size a ≤ (i a).val ∧ (i a).val < win0_6.index t a * S1x1024x32.size a + S1x1024x32.size a := by
  show i ∈ ((View.whole main_v3).slice (win0_6.rect t)).set ↔ _
  rw [View.set_slice_whole, Rect.mem_set_unit]
  exact Iff.rfl

/-- Every index of the result array is in the block of the point of its batch. -/
theorem covered (i : S64x1024x32.Idx) : ∃ t : Fin cfg0.N, (cfg0.win 6).flush t = true ∧ i ∈ ((cfg0.win 6).blk t).view.set := by
  have hN : cfg0.N = 64 := N_0
  have h0 : (i 0).val < 64 := (i 0).isLt
  have h1 : (i 1).val < 1024 := (i 1).isLt
  have h2 : (i 2).val < 32 := (i 2).isLt
  have hlt : (i 0).val < cfg0.N := by omega
  refine ⟨⟨(i 0).val, hlt⟩, flush0_6 _, ?_⟩
  rw [mem_blk]
  obtain ⟨-, -, -, -, -, -, ⟨e0, e1, e2⟩⟩ := idx_facts ⟨(i 0).val, hlt⟩
  have e0' : win0_6.index ⟨(i 0).val, hlt⟩ (0 : Fin 3) = (i 0).val := e0
  intro a
  match a with
  | ⟨0, _⟩ => show win0_6.index _ (0 : Fin 3) * 1 ≤ (i 0).val ∧ (i 0).val < win0_6.index _ (0 : Fin 3) * 1 + 1; rw [e0']; omega
  | ⟨1, _⟩ => show win0_6.index _ (1 : Fin 3) * 1024 ≤ (i 1).val ∧ (i 1).val < win0_6.index _ (1 : Fin 3) * 1024 + 1024; rw [e1]; omega
  | ⟨2, _⟩ => show win0_6.index _ (2 : Fin 3) * 32 ≤ (i 2).val ∧ (i 2).val < win0_6.index _ (2 : Fin 3) * 32 + 32; rw [e2]; omega

/-- The result array after the run is the specification of the arguments. -/
theorem final (c : Dev nD) : (dats m 0 c).arrAt 6 cfg0.N = result m c :=
  (dats m 0 c).arrAt_eq_of_cover 6 (result m c) (fun t _ => flushed_eq m c t) covered

/-- The kernel's run, read: the result array at the specification, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.Relation.Kern

end
-- ==== Proof.lean ====
/- The certificate of the pairwise-relation kernel: over a batch of 64 sets of 1024 feature rows, each row is updated by the
   mean, over the OTHER rows of its set, of their relu representation weighted by a gated dot-product score, projected and
   added back to the row. The kernel handles one batch per grid point with four products on the matrix unit; the reference
   is five host contractions. Both compute `Cert.Relation.out` of the argument arrays (Proof/Spec.lean), the reference stage by
   stage (Proof/RefValue.lean), the kernel block by block (Proof/KernelBlock.lean, Proof/KernelArray.lean). The two differ only in
   how the diagonal of the score is removed (a select against the factor `1 - [i = j]`) and in how the mean is taken (the
   product with `2⁻¹⁰` against the quotient by `1024`): identities on every extended real, so the precondition is not used. -/
import proofs.«129805_j23450521436770_1_alg».proof.Defs
import proofs.«129805_j23450521436770_1_alg».proof.Proof.Gen.Kernel
import proofs.«129805_j23450521436770_1_alg».proof.Proof.Gen.Kernel.Skeleton
import proofs.«129805_j23450521436770_1_alg».proof.Proof.Gen.Kernel.Launch
import proofs.«129805_j23450521436770_1_alg».proof.Proof.Gen.Kernel.Points
import proofs.«129805_j23450521436770_1_alg».proof.Proof.Gen.Kernel.Frame
import proofs.«129805_j23450521436770_1_alg».proof.Proof.Gen.KernelIdeal
import proofs.«129805_j23450521436770_1_alg».proof.Proof.Gen.KernelIdeal.Skeleton
import proofs.«129805_j23450521436770_1_alg».proof.Proof.Gen.KernelIdeal.Launch
import proofs.«129805_j23450521436770_1_alg».proof.Proof.Gen.KernelIdeal.Points
import proofs.«129805_j23450521436770_1_alg».proof.Proof.Gen.KernelIdeal.Frame
import proofs.«129805_j23450521436770_1_alg».proof.Proof.Gen.ReferenceIdeal
import proofs.«129805_j23450521436770_1_alg».proof.Proof.Gen.Pre_finite_inputs
import proofs.«129805_j23450521436770_1_alg».proof.Proof.Gen.KernelIdeal.Value
import proofs.«129805_j23450521436770_1_alg».proof.Proof.Gen.ReferenceIdeal.Run
import proofs.«129805_j23450521436770_1_alg».proof.Proof.Gen.ReferenceIdeal.Read
import proofs.«129805_j23450521436770_1_alg».proof.Proof.RefValue
import proofs.«129805_j23450521436770_1_alg».proof.Proof.KernelArray
import Idealize.ShloMosaic.Adequacy
import Idealize.ShloMosaic.Init

noncomputable section

namespace Cert.Proof

open Idealize.ShloMosaic Idealize.SL.Sem

/-- The reference is a host program: its frame is its run with the result dropped. -/
theorem frame_reference : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (Cert.ReferenceIdeal.Value.run (F := Ideal) m ρ)

/-- From memories that agree on the arguments both programs end with the result array at `Cert.Relation.out` of the arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.Relation.Kern.result m c, Cert.Relation.Kern.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v27_eq _ _ _ _ _ _).trans ?_
  rw [Cert.Relation.Ref.result_eq]
  obtain ⟨a0, a1, a2, a3, a4, a5⟩ := hagree c
  rw [a0, a1, a2, a3, a4, a5]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
